-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S8192x2048 .f32) (main_arg1 : FVec F S64x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S8192x2048 : Shape := ⟨2, ![8192, 2048]⟩
abbrev S64x2048 : Shape := ⟨2, ![64, 2048]⟩
abbrev S8192x64 : Shape := ⟨2, ![8192, 64]⟩
abbrev S1024x2048 : Shape := ⟨2, ![1024, 2048]⟩
abbrev S2048x64 : Shape := ⟨2, ![2048, 64]⟩
abbrev S1024x64 : Shape := ⟨2, ![1024, 64]⟩
abbrev S1024 : Shape := ⟨1, ![1024]⟩
abbrev S1024x1 : Shape := ⟨2, ![1024, 1]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S2048x64, .f32⟩
  | .local _ .vmem, ⟨6, _⟩ => ⟨S2048x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  reduces_S1024x64_S1024 : S1024x64.Reduces [1] S1024
  shapeCasts_S1024_S1024x1 : S1024.ShapeCasts S1024x1
  broadcasts_S1024x1_S1024x64 : S1024x1.Broadcasts S1024x64
  inb_S2048x64_S1024x64_0_0 : ∀ a, (![0, 0] : Fin 2 → Nat) a + S1024x64.size a ≤ S2048x64.size a
  h_S1024x64 : 0 < S1024x64.numel
  inb_S2048x64_S1024x64_1024_0 : ∀ a, (![1024, 0] : Fin 2 → Nat) a + S1024x64.size a ≤ S2048x64.size a
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .f32 = 32 ∨ (Rect.block (s := S8192x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S64x2048 : Shape := ⟨2, ![64, 2048]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2048x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x64, .f32⟩
  | .hbm, ⟨17, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.KernelRun.lean ====
/-
  The run of the gate kernel's program, for every float instance: it terminates, nothing faults, and every array of the
  pipeline ends at what the write-backs of the grid's four points leave in it.

  The one pallas_call reads the token array through TWO input windows (its even and its odd blocks of 1024 rows), the
  weight array through a third (the whole array, fetched once) and writes the gates through an output window of 2048 rows
  a point. The two token windows stand on ONE array, so at the region's entry the array's full share is dealt between
  them, a half each; nothing ever writes an input array, so each half comes back holding the entry contents.

  At a point the body loads the three input blocks, stores into rows 0..1023 of the output block a value computed from
  the weights and the even token block, and into rows 1024..2047 one computed from the weights and the odd token block
  (its two loads of the output block read nothing it uses). The two stores tile the output block, so what the block
  holds after the body is one function of the three input blocks at the point.
-/
import proofs.«132801_g13709535609206_cont_week2b_1308_7_alg».proof.Proof.Gen.Kernel.Launch
import proofs.«132801_g13709535609206_cont_week2b_1308_7_alg».proof.Proof.Gen.Kernel.Skeleton
import proofs.«132801_g13709535609206_cont_week2b_1308_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the entry contents and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole weight block, the whole of a token block, and the two halves of the output block. -/
abbrev rW : Rect S64x2048 := Rect.unit (s := S64x2048) ![0, 0] S64x2048.size inb_S64x2048_S64x2048_0_0
abbrev rX : Rect S1024x2048 := Rect.unit (s := S1024x2048) ![0, 0] S1024x2048.size inb_S1024x2048_S1024x2048_0_0
abbrev rLo : Rect S2048x64 := Rect.unit (s := S2048x64) ![0, 0] S1024x64.size inb_S2048x64_S1024x64_0_0
abbrev rHi : Rect S2048x64 := Rect.unit (s := S2048x64) ![1024, 0] S1024x64.size inb_S2048x64_S1024x64_1024_0

/-! ## What the body leaves in the output window's buffer -/

/-- The output block after the body, from the even token block `x0`, the odd token block `x1` and the weight block `x2`:
    its two stores as pieces, the later one first. -/
def out0_3 (x0 : Vec F S1024x2048 .f32) (x1 : Vec F S1024x2048 .f32) (x2 : Vec F S64x2048 .f32) : Vec F S2048x64 .f32 :=
  View.canon [⟨rHi, k0_pay2 (View.ld x2 rW) (View.ld x1 rX)⟩,
    ⟨rLo, k0_pay1 (View.ld x2 rW) (View.ld x0 rX)⟩]

/-- The two stores tile the output block, so they cover it. -/
theorem cover0_3 (p0 : Vec F S1024x64 .f32) (p1 : Vec F S1024x64 .f32) (y : S2048x64.Idx) :
    ∃ pc ∈ ([⟨rHi, p0⟩, ⟨rLo, p1⟩] : List (View.Piece (Elt F) S2048x64 .f32)), y ∈ pc.1.set :=
  View.cover_of_tiled [⟨rHi, p0⟩, ⟨rLo, p1⟩] S1024x64.size (by rfl) y

/-! ## The body's triple -/

set_option maxHeartbeats 1000000 in
/-- The body on whole staging memrefs, the inputs' at read contents `x0`, `x1`, `x2` and the output's at anything, runs to
    the continuation holding the inputs' as they were and the output's at `out0_3` of the inputs'. -/
theorem sound_kernel (c : Dev nD) (E : Set ℕ) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2048x64 .f32) (harg4 : arg4.IsWhole)
    (x0 : Vec F S1024x2048 .f32) (x1 : Vec F S1024x2048 .f32) (x2 : Vec F S64x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The pipeline's proof data -/

/-- The proof data of the pipeline on core `c`: the arrays as the region finds them; after the body at point `t` each
    input's buffer at its block and the output's at `out0_3` of the three input blocks; the invariant the scoped buffers
    that are no staging buffer (none); nothing owed. The token array's full share is dealt to its two windows, the left
    half to the even blocks' window and the right half to the odd blocks'; the weight array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the region's entry -/

/-- A window's array, whole, at its share and at the entry contents. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w) : sProp 𝕄) := by
  rw [(arr_whole0 w).set_eq_univ]; rfl

/-- The three buffers behind the four windows' arrays, each whole at the full share, make the windows' arrays at their
    shares: the token array's full share is the left half and the right half together, one for each of its windows. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0,
    arr_entry m c 0, arr_entry m c 1, arr_entry m c 2, arr_entry m c 3]
  show (iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) : sProp 𝕄) ⊢ _
  iintro ⟨H0, H1, H2⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  iexact H2

/-! ## The run and the frame -/

set_option backward.isDefEq.respectTransparency.types false in
/-- At the compiled mesh, for any values, from any memory with zero counters: every weakly fair execution of @main
    terminates, and in every final state every window's array holds what the write-backs leave in it. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_entry m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The run with the arrays named: the gates' array at what the four write-backs leave, the two arguments as launched
    (an input array is never written). -/
theorem run_named : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3,
      (h c 0).trans (((dats m 0 c).arrAt_in 0 rfl _).trans (A_eq m c 0)),
      (h c 2).trans (((dats m 0 c).arrAt_in 2 rfl _).trans (A_eq m c 2))⟩) (run_main m ρ)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Run

end
-- ==== Proof.KernelIdealRun.lean ====
/-
  The run of the gate kernel's program, for every float instance: it terminates, nothing faults, and every array of the
  pipeline ends at what the write-backs of the grid's four points leave in it.

  The one pallas_call reads the token array through TWO input windows (its even and its odd blocks of 1024 rows), the
  weight array through a third (the whole array, fetched once) and writes the gates through an output window of 2048 rows
  a point. The two token windows stand on ONE array, so at the region's entry the array's full share is dealt between
  them, a half each; nothing ever writes an input array, so each half comes back holding the entry contents.

  At a point the body loads the three input blocks, stores into rows 0..1023 of the output block a value computed from
  the weights and the even token block, and into rows 1024..2047 one computed from the weights and the odd token block
  (its two loads of the output block read nothing it uses). The two stores tile the output block, so what the block
  holds after the body is one function of the three input blocks at the point.
-/
import proofs.«132801_g13709535609206_cont_week2b_1308_7_alg».proof.Proof.Gen.KernelIdeal.Launch
import proofs.«132801_g13709535609206_cont_week2b_1308_7_alg».proof.Proof.Gen.KernelIdeal.Skeleton
import proofs.«132801_g13709535609206_cont_week2b_1308_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the entry contents and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole weight block, the whole of a token block, and the two halves of the output block. -/
abbrev rW : Rect S64x2048 := Rect.unit (s := S64x2048) ![0, 0] S64x2048.size inb_S64x2048_S64x2048_0_0
abbrev rX : Rect S1024x2048 := Rect.unit (s := S1024x2048) ![0, 0] S1024x2048.size inb_S1024x2048_S1024x2048_0_0
abbrev rLo : Rect S2048x64 := Rect.unit (s := S2048x64) ![0, 0] S1024x64.size inb_S2048x64_S1024x64_0_0
abbrev rHi : Rect S2048x64 := Rect.unit (s := S2048x64) ![1024, 0] S1024x64.size inb_S2048x64_S1024x64_1024_0

/-! ## What the body leaves in the output window's buffer -/

/-- The output block after the body, from the even token block `x0`, the odd token block `x1` and the weight block `x2`:
    its two stores as pieces, the later one first. -/
def out0_3 (x0 : Vec F S1024x2048 .f32) (x1 : Vec F S1024x2048 .f32) (x2 : Vec F S64x2048 .f32) : Vec F S2048x64 .f32 :=
  View.canon [⟨rHi, k0_pay2 (View.ld x2 rW) (View.ld x1 rX)⟩,
    ⟨rLo, k0_pay1 (View.ld x2 rW) (View.ld x0 rX)⟩]

/-- The two stores tile the output block, so they cover it. -/
theorem cover0_3 (p0 : Vec F S1024x64 .f32) (p1 : Vec F S1024x64 .f32) (y : S2048x64.Idx) :
    ∃ pc ∈ ([⟨rHi, p0⟩, ⟨rLo, p1⟩] : List (View.Piece (Elt F) S2048x64 .f32)), y ∈ pc.1.set :=
  View.cover_of_tiled [⟨rHi, p0⟩, ⟨rLo, p1⟩] S1024x64.size (by rfl) y

/-! ## The body's triple -/

set_option maxHeartbeats 1000000 in
/-- The body on whole staging memrefs, the inputs' at read contents `x0`, `x1`, `x2` and the output's at anything, runs to
    the continuation holding the inputs' as they were and the output's at `out0_3` of the inputs'. -/
theorem sound_kernel (c : Dev nD) (E : Set ℕ) (i : grid0.Coords) (arg1 : Memref sig .tc .vmem S1024x2048 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2048x64 .f32) (harg4 : arg4.IsWhole)
    (x0 : Vec F S1024x2048 .f32) (x1 : Vec F S1024x2048 .f32) (x2 : Vec F S64x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The pipeline's proof data -/

/-- The proof data of the pipeline on core `c`: the arrays as the region finds them; after the body at point `t` each
    input's buffer at its block and the output's at `out0_3` of the three input blocks; the invariant the scoped buffers
    that are no staging buffer (none); nothing owed. The token array's full share is dealt to its two windows, the left
    half to the even blocks' window and the right half to the odd blocks'; the weight array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The arrays at the region's entry -/

/-- A window's array, whole, at its share and at the entry contents. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w) : sProp 𝕄) := by
  rw [(arr_whole0 w).set_eq_univ]; rfl

/-- The three buffers behind the four windows' arrays, each whole at the full share, make the windows' arrays at their
    shares: the token array's full share is the left half and the right half together, one for each of its windows. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0,
    arr_entry m c 0, arr_entry m c 1, arr_entry m c 2, arr_entry m c 3]
  show (iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) : sProp 𝕄) ⊢ _
  iintro ⟨H0, H1, H2⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  iexact H2

/-! ## The run and the frame -/

set_option backward.isDefEq.respectTransparency.types false in
/-- At the compiled mesh, for any values, from any memory with zero counters: every weakly fair execution of @main
    terminates, and in every final state every window's array holds what the write-backs leave in it. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_entry m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The run with the arrays named: the gates' array at what the four write-backs leave, the two arguments as launched
    (an input array is never written). -/
theorem run_named : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3,
      (h c 0).trans (((dats m 0 c).arrAt_in 0 rfl _).trans (A_eq m c 0)),
      (h c 2).trans (((dats m 0 c).arrAt_in 2 rfl _).trans (A_eq m c 2))⟩) (run_main m ρ)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Run

end
-- ==== Proof.Spec.lean ====
/-
  The gate: softmax over the experts of the token-by-expert logits.

  For a token row `r` and an expert `h` the logit is the inner product of the token's features with the expert's weight
  row, `∑ k, x[r, k] · w[h, k]`. A row of logits `z` is turned into gates by the softmax shifted by the row's maximum:
  `exp (z q − max z) / ∑ l, exp (z l − max z)`, the maximum taken as the fold of `max` from −∞ over the row. Everything is on
  the extended reals, with the ideal instance's exponential and quotient.
-/
import Idealize.ShloMosaic.PureOps.Ideal
import Idealize.ShloMosaic.Lib.ValueIdx

noncomputable section

namespace Cert.Gate

open Idealize.ShloMosaic Idealize.ShloMosaic.ValueIdx

/-- The value a row maximum starts from: the extended real the f32 word of −∞ denotes. -/
abbrev negInf : EReal := Ideal.ofBits .f32 0xFF800000#32

/-- The maximum of a row: the fold of `max` from −∞ over its entries. -/
def rowMax {n : ℕ} (z : Fin n → EReal) : EReal := (Finset.univ : Finset (Fin n)).fold max negInf z

/-- Entry `q` of a row shifted by the row's maximum and exponentiated. -/
def rowExp {n : ℕ} (z : Fin n → EReal) (q : Fin n) : EReal := Ideal.exp (z q - rowMax z)

/-- Softmax of a row at entry `q`: the shifted exponential over the sum of the row's shifted exponentials. -/
def rowSoftmax {n : ℕ} (z : Fin n → EReal) (q : Fin n) : EReal := Ideal.div (rowExp z q) (∑ l : Fin n, rowExp z l)

/-- The logit of token row `r` and expert `h`: the inner product of the token's 2048 features with the expert's weights. -/
def logit {T : ℕ} (x : (⟨2, ![T, 2048]⟩ : Shape).Idx → EReal) (w : (⟨2, ![64, 2048]⟩ : Shape).Idx → EReal) (r : Fin T) (h : Fin 64) :
    EReal := ∑ k : Fin 2048, x (ix2 r k) * w (ix2 h k)

/-- The gate of token row `p` for expert `q`. -/
def gateAt {T : ℕ} (x : (⟨2, ![T, 2048]⟩ : Shape).Idx → EReal) (w : (⟨2, ![64, 2048]⟩ : Shape).Idx → EReal) (p : Fin T) (q : Fin 64) :
    EReal := rowSoftmax (logit x w p) q

/-- The gates of all 8192 tokens, as an array over [8192, 64]. -/
def gates (x : (⟨2, ![8192, 2048]⟩ : Shape).Idx → EReal) (w : (⟨2, ![64, 2048]⟩ : Shape).Idx → EReal) :
    (⟨2, ![8192, 64]⟩ : Shape).Idx → EReal := fun j => gateAt x w ⟨(j 0).val, idx2_lt0 j⟩ ⟨(j 1).val, idx2_lt1 j⟩

theorem gates_ix2 (x : (⟨2, ![8192, 2048]⟩ : Shape).Idx → EReal) (w : (⟨2, ![64, 2048]⟩ : Shape).Idx → EReal) (p : Fin 8192) (q : Fin 64) :
    gates x w (ix2 p q) = gateAt x w p q := rfl

/-- The gate of a token depends only on the token's own feature row: two feature arrays that agree on row `p` of the one and
    row `p'` of the other give that token the same gates. -/
theorem gateAt_congr {T T' : ℕ} (x : (⟨2, ![T, 2048]⟩ : Shape).Idx → EReal) (x' : (⟨2, ![T', 2048]⟩ : Shape).Idx → EReal)
    (w : (⟨2, ![64, 2048]⟩ : Shape).Idx → EReal) (p : Fin T) (p' : Fin T') (h : ∀ k : Fin 2048, x (ix2 p k) = x' (ix2 p' k)) (q : Fin 64) :
    gateAt x w p q = gateAt x' w p' q := by
  have hl : logit x w p = logit x' w p' := funext fun e => Finset.sum_congr rfl fun k _ => by rw [h k]
  unfold gateAt; rw [hl]

end Cert.Gate

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.GatePayload.lean ====
/-
  The gate kernel's arithmetic at an entry.

  For a block of 1024 token rows `x` and the 64 expert rows `w` the body forms the logits
  `z[p, q] = ∑ k, x[p, k] · w[q, k]` (a product into a zero accumulator that contracts the feature axis of both operands),
  takes each row's maximum from −∞, subtracts it along the row, exponentiates, sums each row and divides along the row. Read
  at the entry `(p, q)` that is the softmax of the logit row `p` at expert `q`: the row operations each read one row, and
  the product's contraction index is the feature coordinate `k` on both operands.
-/
import proofs.«132801_g13709535609206_cont_week2b_1308_7_alg».proof.Proof.Gen.KernelIdeal.Skeleton
import proofs.«132801_g13709535609206_cont_week2b_1308_7_alg».proof.Proof.Spec
import proofs.«132801_g13709535609206_cont_week2b_1308_7_alg».proof.Proof.LibRowOps

set_option synthInstance.maxSize 4096

noncomputable section

namespace Cert.KernelIdeal.GateValue

open Idealize.ShloMosaic Idealize.SL.Sem Idealize.ShloMosaic.ValueIdx
open Cert.KernelIdeal

/-! ## The logits: the product read at an entry -/

/-- The token operand's row coordinate is the entry's row. -/
theorem lhs_logits_0 (i : S1024x64.Idx) (c : dot_S1024x2048_S64x2048_S1024x64_1_1_0_0_n_n.contr.Idx) :
    (dot_S1024x2048_S64x2048_S1024x64_1_1_0_0_n_n.lhsIdx i c 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
/-- The token operand's feature coordinate is the contraction position. -/
theorem lhs_logits_1 (i : S1024x64.Idx) (c : dot_S1024x2048_S64x2048_S1024x64_1_1_0_0_n_n.contr.Idx) :
    (dot_S1024x2048_S64x2048_S1024x64_1_1_0_0_n_n.lhsIdx i c 1).val = (c ⟨0, by decide⟩).val :=
  dot_S1024x2048_S64x2048_S1024x64_1_1_0_0_n_n.lhsIdx_val_of_single rfl i c
/-- The weight operand's row coordinate is the entry's column: the expert. -/
theorem rhs_logits_0 (i : S1024x64.Idx) (c : dot_S1024x2048_S64x2048_S1024x64_1_1_0_0_n_n.contr.Idx) :
    (dot_S1024x2048_S64x2048_S1024x64_1_1_0_0_n_n.rhsIdx i c 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
/-- The weight operand's feature coordinate is the contraction position. -/
theorem rhs_logits_1 (i : S1024x64.Idx) (c : dot_S1024x2048_S64x2048_S1024x64_1_1_0_0_n_n.contr.Idx) :
    (dot_S1024x2048_S64x2048_S1024x64_1_1_0_0_n_n.rhsIdx i c 1).val = (c ⟨0, by decide⟩).val :=
  dot_S1024x2048_S64x2048_S1024x64_1_1_0_0_n_n.rhsIdx_val_of_single rfl i c

/-- The product of a token block with the expert weights into a zero accumulator, read at `(p, q)`, is the logit of token
    row `p` and expert `q`. -/
theorem logits_apply (w : FVec Ideal S64x2048 .f32) (x : FVec Ideal S1024x2048 .f32) (p : Fin 1024) (q : Fin 64) :
    matmul dot_S1024x2048_S64x2048_S1024x64_1_1_0_0_n_n none x w (constant (F := Ideal) S1024x64 .f32 0x00000000#32) (ix2 p q) = Cert.Gate.logit x w p q := by
  simp only [matmul]
  rw [Ideal.matmul_constant_zero_apply, ← Equiv.sum_comp (ValueIdx.contrEquiv1 dot_S1024x2048_S64x2048_S1024x64_1_1_0_0_n_n 2048 rfl rfl).symm]
  unfold Cert.Gate.logit
  refine Finset.sum_congr rfl fun k _ => ?_
  have hk := ValueIdx.contrEquiv1_symm_val dot_S1024x2048_S64x2048_S1024x64_1_1_0_0_n_n 2048 rfl rfl k
  have el : dot_S1024x2048_S64x2048_S1024x64_1_1_0_0_n_n.lhsIdx (ix2 p q) ((ValueIdx.contrEquiv1 dot_S1024x2048_S64x2048_S1024x64_1_1_0_0_n_n 2048 rfl rfl).symm k) = ix2 p k := funext fun a => Fin.ext (by
    match a with
    | ⟨0, _⟩ => exact lhs_logits_0 _ _
    | ⟨1, _⟩ => exact (lhs_logits_1 _ _).trans hk)
  have er : dot_S1024x2048_S64x2048_S1024x64_1_1_0_0_n_n.rhsIdx (ix2 p q) ((ValueIdx.contrEquiv1 dot_S1024x2048_S64x2048_S1024x64_1_1_0_0_n_n 2048 rfl rfl).symm k) = ix2 q k := funext fun a => Fin.ext (by
    match a with
    | ⟨0, _⟩ => exact rhs_logits_0 _ _
    | ⟨1, _⟩ => exact (rhs_logits_1 _ _).trans hk)
  rw [el, er]

/-! ## The row operations on a block of logits -/

/-- Each row's maximum, from −∞, repeated along the row. -/
def rowMaxB (z : FVec Ideal S1024x64 .f32) : FVec Ideal S1024x64 .f32 :=
  broadcastTo S1024x64
    (shapeCast S1024x1 (multiReduction (F := Ideal) .maximumf [1] S1024 z 0xFF800000#32 Gen.reduces_S1024x64_S1024 (.inl rfl) rfl)
      Gen.shapeCasts_S1024_S1024x1)
    Gen.broadcasts_S1024x1_S1024x64

/-- The block shifted by its rows' maxima and exponentiated. -/
def expB (z : FVec Ideal S1024x64 .f32) : FVec Ideal S1024x64 .f32 := exp (subf z (rowMaxB z))

/-- Each row's sum, repeated along the row. -/
def rowSumB (e : FVec Ideal S1024x64 .f32) : FVec Ideal S1024x64 .f32 :=
  broadcastTo S1024x64
    (shapeCast S1024x1 (multiReduction (F := Ideal) .add [1] S1024 e 0x00000000#32 Gen.reduces_S1024x64_S1024 (.inl rfl) rfl)
      Gen.shapeCasts_S1024_S1024x1)
    Gen.broadcasts_S1024x1_S1024x64

/-- The block's row-wise softmax: the shifted exponentials over their row sums. -/
def softmaxB (z : FVec Ideal S1024x64 .f32) : FVec Ideal S1024x64 .f32 := divf (expB z) (rowSumB (expB z))

/-- Anywhere along row `p` the repeated maximum is the maximum of that row's 64 entries. -/
theorem rowMaxB_apply (z : FVec Ideal S1024x64 .f32) (p : Fin 1024) (c : Fin 64) :
    rowMaxB z (ix2 p c) = Cert.Gate.rowMax fun l : Fin 64 => z (ix2 p l) :=
  (RowOps.broadcastTo_a1_ab_apply _ Gen.broadcasts_S1024x1_S1024x64 p c).trans
    ((RowOps.shapeCast_a_a1_apply _ Gen.shapeCasts_S1024_S1024x1 p 0).trans
      (RowOps.multiReduction_maximumf_row z 0xFF800000#32 Gen.reduces_S1024x64_S1024 (.inl rfl) rfl p))

/-- The shifted exponential at `(p, c)` is that of row `p` at entry `c`. -/
theorem expB_apply (z : FVec Ideal S1024x64 .f32) (p : Fin 1024) (c : Fin 64) :
    expB z (ix2 p c) = Cert.Gate.rowExp (fun l : Fin 64 => z (ix2 p l)) c :=
  congrArg (fun m : EReal => Ideal.exp (z (ix2 p c) - m)) (rowMaxB_apply z p c)

/-- Anywhere along row `p` the repeated sum is the sum of that row's 64 entries. -/
theorem rowSumB_apply (e : FVec Ideal S1024x64 .f32) (p : Fin 1024) (c : Fin 64) :
    rowSumB e (ix2 p c) = ∑ l : Fin 64, e (ix2 p l) :=
  (RowOps.broadcastTo_a1_ab_apply _ Gen.broadcasts_S1024x1_S1024x64 p c).trans
    ((RowOps.shapeCast_a_a1_apply _ Gen.shapeCasts_S1024_S1024x1 p 0).trans
      (RowOps.multiReduction_add_row e 0x00000000#32 Gen.reduces_S1024x64_S1024 (.inl rfl) rfl p))

/-- The block's softmax at `(p, q)` is the softmax of row `p` at entry `q`. -/
theorem softmaxB_apply (z : FVec Ideal S1024x64 .f32) (p : Fin 1024) (q : Fin 64) :
    softmaxB z (ix2 p q) = Cert.Gate.rowSoftmax (fun l : Fin 64 => z (ix2 p l)) q := by
  show Ideal.div (expB z (ix2 p q)) (rowSumB (expB z) (ix2 p q)) = _
  unfold Cert.Gate.rowSoftmax
  refine congrArg₂ Ideal.div (expB_apply z p q) ((rowSumB_apply (expB z) p q).trans ?_)
  exact Finset.sum_congr rfl fun l _ => expB_apply z p l

/-! ## The values the body stores for the two half-blocks -/

/-- The value stored for the first half-block, at `(p, q)`: the gate of the block's token row `p` for expert `q`. -/
theorem pay1_apply (v0 : Vec Ideal Cert.KernelIdeal.S64x2048 .f32) (v1 : Vec Ideal Cert.KernelIdeal.S1024x2048 .f32) (p : Fin 1024) (q : Fin 64) :
    Cert.KernelIdeal.Gen.k0_pay1 (F := Ideal) v0 v1 (ix2 p q) = Cert.Gate.rowSoftmax (Cert.Gate.logit v1 v0 p) q := by
  show softmaxB (matmul dot_S1024x2048_S64x2048_S1024x64_1_1_0_0_n_n none v1 v0 (constant (F := Ideal) S1024x64 .f32 0x00000000#32)) (ix2 p q) = _
  refine (softmaxB_apply _ p q).trans ?_
  exact congrArg (fun r : Fin 64 → EReal => Cert.Gate.rowSoftmax r q) (funext fun l => logits_apply v0 v1 p l)

/-- The value stored for the second half-block is the same term of its own token block. -/
theorem pay2_apply (v0 : Vec Ideal Cert.KernelIdeal.S64x2048 .f32) (v13 : Vec Ideal Cert.KernelIdeal.S1024x2048 .f32) (p : Fin 1024) (q : Fin 64) :
    Cert.KernelIdeal.Gen.k0_pay2 (F := Ideal) v0 v13 (ix2 p q) = Cert.Gate.rowSoftmax (Cert.Gate.logit v13 v0 p) q :=
  pay1_apply v0 v13 p q

end Cert.KernelIdeal.GateValue

end
-- ==== Proof.GateBlocks.lean ====
/-
  The gates' array after the run, at the ideal values: the softmax gates of every token.

  Point `t` of the grid writes back rows `2048·t .. 2048·t + 2047` of the gates' array. Its even token block is rows
  `2048·t .. 2048·t + 1023` of the token array and its odd token block rows `2048·t + 1024 .. 2048·t + 2047`; the weight block
  is the whole weight array. Row `r` of the output block is the softmax of the logits of row `r` of the even block against
  the weights when `r < 1024`, and of row `r − 1024` of the odd block otherwise: either way the gates of token
  `2048·t + r`, because a token's gates depend on its own feature row only. The four blocks tile the 8192 rows, so the
  array ends holding the gates of all tokens.
-/
import proofs.«132801_g13709535609206_cont_week2b_1308_7_alg».proof.Proof.KernelIdealRun
import proofs.«132801_g13709535609206_cont_week2b_1308_7_alg».proof.Proof.GatePayload
import Idealize.ShloMosaic.Lib.Pipeline.Value

set_option maxRecDepth 16384

noncomputable section

namespace Cert.KernelIdeal.GateValue

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the blocks sit -/

/-- The index maps over the grid: the even token block is block `2t`, the odd one block `2t + 1`, the weights block 0,
    the output block `t`; every second coordinate is 0. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the even token block is the token array's entry `2048·t` rows further down. -/
theorem evenBlock_apply (c : Dev nD) (t : Fin cfg0.N) (y : S1024x2048.Idx) (i : S8192x2048.Idx)
    (h0 : (i 0).val = 2048 * t.val + (y 0).val) (h1 : (i 1).val = (y 1).val) :
    iblk m c 0 t y = V m c main_arg0 i := by
  show V m c main_arg0 (((cfg0.win 0).blk t).view.emb y) = V m c main_arg0 i
  refine congrArg _ (funext fun a => Fin.ext ?_)
  obtain ⟨e0, e1, -⟩ := idx_facts t
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- An entry of the odd token block is the token array's entry `2048·t + 1024` rows further down. -/
theorem oddBlock_apply (c : Dev nD) (t : Fin cfg0.N) (y : S1024x2048.Idx) (i : S8192x2048.Idx)
    (h0 : (i 0).val = 2048 * t.val + 1024 + (y 0).val) (h1 : (i 1).val = (y 1).val) :
    iblk m c 1 t y = V m c main_arg0 i := by
  show V m c main_arg0 (((cfg0.win 1).blk t).view.emb y) = V m c main_arg0 i
  refine congrArg _ (funext fun a => Fin.ext ?_)
  obtain ⟨-, -, e0, e1, -⟩ := idx_facts t
  match a with
  | ⟨0, _⟩ => show win0_1.index t (0 : Fin 2) * 1024 + 1 * (y 0).val = (i 0).val; omega
  | ⟨1, _⟩ => show win0_1.index t (1 : Fin 2) * 2048 + 1 * (y 1).val = (i 1).val; omega

/-- The weight block is the weight array. -/
theorem weightBlock_apply (c : Dev nD) (t : Fin cfg0.N) (y : S64x2048.Idx) :
    iblk m c 2 t y = V m c main_arg1 y := by
  show V m c main_arg1 (((cfg0.win 2).blk t).view.emb y) = V m c main_arg1 y
  refine congrArg _ (funext fun a => Fin.ext ?_)
  obtain ⟨-, -, -, -, e0, e1, -⟩ := idx_facts t
  match a with
  | ⟨0, _⟩ => show win0_2.index t (0 : Fin 2) * 64 + 1 * (y 0).val = (y 0).val; omega
  | ⟨1, _⟩ => show win0_2.index t (1 : Fin 2) * 2048 + 1 * (y 1).val = (y 1).val; omega

/-! ## The output block at an entry -/

theorem hz : (![0, 0] : Fin 2 → Nat) = fun _ => 0 := funext fun a => by fin_cases a <;> rfl

/-- A row below 1024 of the output block is outside the later store's rows. -/
theorem not_mem_hi (p : Fin 1024) (q : Fin 64) : (ix2 (⟨p.val, by omega⟩ : Fin 2048) q : S2048x64.Idx) ∉ rHi.set := by
  rw [Rect.mem_set_unit]
  intro h
  have h0 := (h 0).1
  have : (1024 : Nat) ≤ p.val := h0
  omega

/-- Row `p` of the first store's rectangle is row `p` of the output block. -/
theorem lo_emb (p : Fin 1024) (q : Fin 64) : rLo.emb (ix2 p q : S1024x64.Idx) = (ix2 (⟨p.val, by omega⟩ : Fin 2048) q : S2048x64.Idx) := by
  funext a; apply Fin.ext
  match a with
  | ⟨0, _⟩ => show 0 + 1 * p.val = p.val; omega
  | ⟨1, _⟩ => show 0 + 1 * q.val = q.val; omega

/-- Row `p` of the second store's rectangle is row `1024 + p` of the output block. -/
theorem hi_emb (p : Fin 1024) (q : Fin 64) : rHi.emb (ix2 p q : S1024x64.Idx) = (ix2 (⟨1024 + p.val, by omega⟩ : Fin 2048) q : S2048x64.Idx) := by
  funext a; apply Fin.ext
  match a with
  | ⟨0, _⟩ => show 1024 + 1 * p.val = 1024 + p.val; omega
  | ⟨1, _⟩ => show 0 + 1 * q.val = q.val; omega

/-- Where the two stores' payloads sit in the output block: a row below 1024 reads the first store's payload at the
    same row, -/
theorem canon_lo (w1 w0 : Vec Ideal S1024x64 .f32) (p : Fin 1024) (q : Fin 64) :
    View.canon [(⟨rHi, w1⟩ : View.Piece (Elt Ideal) S2048x64 .f32), ⟨rLo, w0⟩] (ix2 (⟨p.val, by omega⟩ : Fin 2048) q) = w0 (ix2 p q) :=
  (View.canon_cons_of_not_mem (⟨rHi, w1⟩ : View.Piece (Elt Ideal) S2048x64 .f32) [⟨rLo, w0⟩] (not_mem_hi p q)).trans
    ((congrArg (View.canon [(⟨rLo, w0⟩ : View.Piece (Elt Ideal) S2048x64 .f32)]) (lo_emb p q).symm).trans
      (View.canon_cons_emb rLo w0 [] (ix2 p q)))

/-- and row `1024 + p` reads the second store's payload at row `p`. -/
theorem canon_hi (w1 w0 : Vec Ideal S1024x64 .f32) (p : Fin 1024) (q : Fin 64) :
    View.canon [(⟨rHi, w1⟩ : View.Piece (Elt Ideal) S2048x64 .f32), ⟨rLo, w0⟩] (ix2 (⟨1024 + p.val, by omega⟩ : Fin 2048) q) = w1 (ix2 p q) :=
  (congrArg (View.canon [(⟨rHi, w1⟩ : View.Piece (Elt Ideal) S2048x64 .f32), ⟨rLo, w0⟩]) (hi_emb p q).symm).trans
    (View.canon_cons_emb rHi w1 [⟨rLo, w0⟩] (ix2 p q))

/-- Rows 0..1023 of the output block: the gates of the even token block's rows. -/
theorem out_lo (x0 x1 : Vec Ideal S1024x2048 .f32) (x2 : Vec Ideal S64x2048 .f32) (p : Fin 1024) (q : Fin 64) :
    out0_3 x0 x1 x2 (ix2 (⟨p.val, by omega⟩ : Fin 2048) q) = Cert.Gate.gateAt x0 x2 p q := by
  have e2 : View.ld x2 rW = x2 := View.ld_unit_zero (S := S64x2048) hz _ x2
  have e0 : View.ld x0 rX = x0 := View.ld_unit_zero (S := S1024x2048) hz _ x0
  unfold out0_3
  refine (canon_lo _ _ p q).trans ?_
  rw [e2, e0]
  exact pay1_apply x2 x0 p q

/-- Rows 1024..2047 of the output block: the gates of the odd token block's rows. -/
theorem out_hi (x0 x1 : Vec Ideal S1024x2048 .f32) (x2 : Vec Ideal S64x2048 .f32) (p : Fin 1024) (q : Fin 64) :
    out0_3 x0 x1 x2 (ix2 (⟨1024 + p.val, by omega⟩ : Fin 2048) q) = Cert.Gate.gateAt x1 x2 p q := by
  have e2 : View.ld x2 rW = x2 := View.ld_unit_zero (S := S64x2048) hz _ x2
  have e1 : View.ld x1 rX = x1 := View.ld_unit_zero (S := S1024x2048) hz _ x1
  unfold out0_3
  refine (canon_hi _ _ p q).trans ?_
  rw [e2, e1]
  exact pay2_apply x2 x1 p q

/-! ## From blocks to the array -/

/-- The gates of the launched arrays. -/
abbrev gatesOf (c : Dev nD) : S8192x64.Idx → EReal := Cert.Gate.gates (V m c main_arg0) (V m c main_arg1)

/-- What point `t` writes back is block `t` of the gates of the launched arrays. -/
theorem flushed_eq (c : Dev nD) (t : Fin cfg0.N) :
    (dats m 0 c).flushed 3 t = ((cfg0.win 3).blk t).view.read (Elt Ideal) (gatesOf m c) := by
  show (cfg0.win 3).cut (grid0.coords t) ((dats m 0 c).after 3 t) = _
  rw [after0_3]
  funext j
  show out0_3 (iblk m c 0 t) (iblk m c 1 t) (iblk m c 2 t) j = gatesOf m c (((cfg0.win 3).blk t).view.emb j)
  obtain ⟨-, -, -, -, -, -, e0, e1⟩ := idx_facts t
  have ht : t.val < 4 := lt_of_lt_of_eq t.isLt N_0
  obtain ⟨r, q, rfl⟩ : ∃ (r : Fin 2048) (q : Fin 64), j = ix2 r q := ⟨j 0, j 1, eq_ix2 j⟩
  have hemb : ((cfg0.win 3).blk t).view.emb (ix2 r q : S2048x64.Idx) = (ix2 (⟨2048 * t.val + r.val, by omega⟩ : Fin 8192) q : S8192x64.Idx) := by
    funext a; apply Fin.ext
    match a with
    | ⟨0, _⟩ => show win0_3.index t (0 : Fin 2) * 2048 + 1 * r.val = 2048 * t.val + r.val; omega
    | ⟨1, _⟩ => show win0_3.index t (1 : Fin 2) * 64 + 1 * q.val = q.val; omega
  rw [hemb]
  show _ = Cert.Gate.gateAt (V m c main_arg0) (V m c main_arg1) ⟨2048 * t.val + r.val, _⟩ q
  have hw : (iblk m c 2 t : S64x2048.Idx → EReal) = V m c main_arg1 := funext fun y => weightBlock_apply m c t y
  by_cases hr : r.val < 1024
  · have e : r = ⟨(⟨r.val, hr⟩ : Fin 1024).val, by omega⟩ := rfl
    rw [e, out_lo, hw]
    exact Cert.Gate.gateAt_congr _ _ _ _ _ (fun k => evenBlock_apply m c t _ _ rfl rfl) q
  · have hr' : r.val - 1024 < 1024 := by have := r.isLt; omega
    have e : r = ⟨1024 + (⟨r.val - 1024, hr'⟩ : Fin 1024).val, by have := r.isLt; omega⟩ := Fin.ext (by show r.val = 1024 + (r.val - 1024); omega)
    rw [e, out_hi, hw]
    exact Cert.Gate.gateAt_congr _ _ _ _ _ (fun k => oddBlock_apply m c t _ _ (by show 2048 * t.val + (1024 + (r.val - 1024)) = 2048 * t.val + 1024 + (r.val - 1024); omega) rfl) q

/-- An index of the gates' array is in point `t`'s block iff each coordinate is in the block's range. -/
theorem mem_blk (t : Fin cfg0.N) (i : S8192x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v0).slice (win0_3.rect t)).set ↔ _
  rw [View.set_slice_whole, Rect.mem_set_unit]
  exact Iff.rfl

/-- Every index of the gates' array is in the block of the point its row falls in. -/
theorem covered (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  let t : Fin cfg0.N := ⟨(i 0).val / 2048, lt_of_lt_of_eq (by omega : (i 0).val / 2048 < 4) N_0.symm⟩
  refine ⟨t, flush0_3 t, ?_⟩
  rw [mem_blk]
  obtain ⟨-, -, -, -, -, -, e0, e1⟩ := idx_facts t
  have tv : t.val = (i 0).val / 2048 := rfl
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 64 ≤ (i 1).val ∧ (i 1).val < win0_3.index t (1 : Fin 2) * 64 + 64; omega

/-- The gates' array after the run holds the gates of the launched arrays. -/
theorem final (c : Dev nD) : (dats m 0 c).arrAt 3 cfg0.N = gatesOf m c :=
  (dats m 0 c).arrAt_eq_of_cover 3 (gatesOf m c) (fun t _ => flushed_eq m c t) covered

/-- The idealized kernel's run: the gates' array ends at the gates of the launched arrays, the arguments as launched. -/
theorem run : θ_run defs (onTc (τ := τ) (main (F := Ideal))) ⟨m, fun _ => 0, ρ⟩ (fun r => ∀ c : Dev nD,
      r.2.mem ((c.tc : Thread nD τ).loc main_v0) = gatesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (run_named m ρ)

end Cert.KernelIdeal.GateValue

end
-- ==== Proof.RefGates.lean ====
/-
  The reference's result is the gate: the softmax over the experts of the token-by-expert logits.

  The reference computes the logits as the product of the token features with the transposed expert weights, takes each
  row's maximum from −∞ over the experts, takes the maximum of that with −∞ once more, subtracts it from the row, exponentiates,
  sums each row from zero, and divides. Read at token `p` and expert `q`:
  * the logit is `∑ k, x[p, k] · w[q, k]` (the transpose reads the weights at the swapped index);
  * a fold of `max` that starts from a value is at least that value, so the second maximum with −∞ changes nothing,
    whatever extended real the −∞ word denotes;
  * the sum starts from the zero word, which denotes `0`, and `0 + s = s`.
  So the result at `(p, q)` is `exp (z q − max z) / ∑ l, exp (z l − max z)` for the row of logits `z` of token `p`.
-/
import proofs.«132801_g13709535609206_cont_week2b_1308_7_alg».proof.Proof.Gen.ReferenceIdeal.Read
import proofs.«132801_g13709535609206_cont_week2b_1308_7_alg».proof.Proof.Spec
import proofs.«132801_g13709535609206_cont_week2b_1308_7_alg».proof.Proof.LibRowOps

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowOps

/-! ## The index functions of the stages at an index given by its coordinates -/

/-- The transpose reads the weights at the swapped index. -/
theorem idx_v0_at (k : Fin 2048) (q : Fin 64) : idx_main_v0 (ix2 k q) = ix2 q k := by
  funext a; apply Fin.ext
  match a with
  | ⟨0, _⟩ => rfl
  | ⟨1, _⟩ => rfl

/-- The product's left operand is read at the token's row and the contracted feature. -/
theorem lidx_v1_at (p : Fin 8192) (q : Fin 64) (k : Fin 2048) : lidx_main_v1 (ix2 p q) k = ix2 p k := by
  funext a; apply Fin.ext
  match a with
  | ⟨0, _⟩ => rfl
  | ⟨1, _⟩ => rfl

/-- The product's right operand is read at the contracted feature and the expert's column. -/
theorem ridx_v1_at (p : Fin 8192) (q : Fin 64) (k : Fin 2048) : ridx_main_v1 (ix2 p q) k = ix2 k q := by
  funext a; apply Fin.ext
  match a with
  | ⟨0, _⟩ => rfl
  | ⟨1, _⟩ => rfl

/-- The column broadcast along the experts reads the column at the token's row. -/
theorem idx_v6_at (p : Fin 8192) (q : Fin 64) : idx_main_v6 (ix2 p q) = ix2 p (0 : Fin 1) := by
  funext a; apply Fin.ext
  match a with
  | ⟨0, _⟩ => rfl
  | ⟨1, _⟩ => rfl

/-- The keepdims column reads the vector at the token's row. -/
theorem idx_v5_at (p : Fin 8192) (u : Fin 1) : idx_main_v5 (ix2 p u) = ix1 p := by
  funext a; apply Fin.ext
  match a with
  | ⟨0, _⟩ => rfl

/-- The same for the column of the sums. -/
theorem idx_v11_at (p : Fin 8192) (q : Fin 64) : idx_main_v11 (ix2 p q) = ix2 p (0 : Fin 1) := by
  funext a; apply Fin.ext
  match a with
  | ⟨0, _⟩ => rfl
  | ⟨1, _⟩ => rfl

theorem idx_v10_at (p : Fin 8192) (u : Fin 1) : idx_main_v10 (ix2 p u) = ix1 p := by
  funext a; apply Fin.ext
  match a with
  | ⟨0, _⟩ => rfl

/-- The sum over the experts reads the row's entries. -/
theorem idx_v9_at (p : Fin 8192) (l : Fin 64) : idx_main_v9 (ix1 p) l = ix2 p l := by
  funext a; apply Fin.ext
  match a with
  | ⟨0, _⟩ => rfl
  | ⟨1, _⟩ => rfl

/-! ## The stages at an index -/

/-- The logits: the inner product of the token's features with the expert's weights. -/
theorem v1_at (x : (⟨S8192x2048, .f32⟩ : BufTy).Contents (Elt Ideal)) (w : (⟨S64x2048, .f32⟩ : BufTy).Contents (Elt Ideal))
    (p : Fin 8192) (q : Fin 64) : val_main_v1 (F := Ideal) x w (ix2 p q) = Cert.Gate.logit x w p q := by
  rw [val_main_v1_apply]
  unfold Cert.Gate.logit
  refine Finset.sum_congr rfl fun k _ => ?_
  rw [val_main_v0_apply, lidx_v1_at, ridx_v1_at, idx_v0_at]

/-- A fold of `max` that starts from `a` is at least `a`, so taking the maximum with `a` once more changes nothing. -/
theorem max_fold_max_self {n : ℕ} (a : EReal) (f : Fin n → EReal) :
    max a ((Finset.univ : Finset (Fin n)).fold max a f) = (Finset.univ : Finset (Fin n)).fold max a f :=
  max_eq_right (Finset.le_fold_max a |>.mpr (Or.inl le_rfl))

/-- The host's maximum over the experts, at a token, is the maximum of the token's row of logits. -/
theorem v2_at (x : (⟨S8192x2048, .f32⟩ : BufTy).Contents (Elt Ideal)) (w : (⟨S64x2048, .f32⟩ : BufTy).Contents (Elt Ideal))
    (p : Fin 8192) : val_main_v2 (F := Ideal) x w (ix1 p) = Cert.Gate.rowMax (Cert.Gate.logit x w p) := by
  unfold val_main_v2
  refine (hostReduce_maximumf_row (val_main_v1 (F := Ideal) x w) (val_main_cst (F := Ideal)) reducesTo_S8192x64_S8192_d1
    (by decide) h_S_ p).trans ?_
  have hf : (fun l : Fin 64 => val_main_v1 (F := Ideal) x w (ix2 p l)) = Cert.Gate.logit x w p :=
    funext fun l => v1_at x w p l
  rw [hf, val_main_cst_apply, Ideal.ofBits_def]
  rfl

/-- The shift: the maximum with −∞ of the row maximum is the row maximum. -/
theorem v4_at (x : (⟨S8192x2048, .f32⟩ : BufTy).Contents (Elt Ideal)) (w : (⟨S64x2048, .f32⟩ : BufTy).Contents (Elt Ideal))
    (p : Fin 8192) : val_main_v4 (F := Ideal) x w (ix1 p) = Cert.Gate.rowMax (Cert.Gate.logit x w p) := by
  rw [val_main_v4_apply, val_main_v3_apply, val_main_cst_0_apply, v2_at, Ideal.maximumf_def, Ideal.ofBits_def]
  exact max_fold_max_self Cert.Gate.negInf (Cert.Gate.logit x w p)

/-- The shifted exponentials. -/
theorem v8_at (x : (⟨S8192x2048, .f32⟩ : BufTy).Contents (Elt Ideal)) (w : (⟨S64x2048, .f32⟩ : BufTy).Contents (Elt Ideal))
    (p : Fin 8192) (q : Fin 64) :
    val_main_v8 (F := Ideal) x w (ix2 p q) = Cert.Gate.rowExp (Cert.Gate.logit x w p) q := by
  rw [val_main_v8_apply, val_main_v7_apply, val_main_v6_apply, idx_v6_at, val_main_v5_apply, idx_v5_at, v4_at, v1_at,
    Ideal.hostUnary_exp_def, Ideal.subf_def]
  rfl

/-- The sum of a token's shifted exponentials, from zero. -/
theorem v9_at (x : (⟨S8192x2048, .f32⟩ : BufTy).Contents (Elt Ideal)) (w : (⟨S64x2048, .f32⟩ : BufTy).Contents (Elt Ideal))
    (p : Fin 8192) :
    val_main_v9 (F := Ideal) x w (ix1 p) = ∑ l : Fin 64, Cert.Gate.rowExp (Cert.Gate.logit x w p) l := by
  rw [val_main_v9_apply, val_main_cst_1_apply, Ideal.ofBits_def, Ideal.ofBits_zero_f32, zero_add]
  refine Finset.sum_congr rfl fun l _ => ?_
  rw [idx_v9_at, v8_at]

/-! ## The result -/

/-- The reference's result is the gates of the specification. -/
theorem ref_gates (x : (⟨Cert.ReferenceIdeal.S8192x2048, .f32⟩ : BufTy).Contents (Elt Ideal))
    (w : (⟨Cert.ReferenceIdeal.S64x2048, .f32⟩ : BufTy).Contents (Elt Ideal)) :
    Cert.ReferenceIdeal.Read.val_main_v12 (F := Ideal) x w = Cert.Gate.gates x w := by
  funext j
  obtain ⟨p, q, rfl⟩ : ∃ (p : Fin 8192) (q : Fin 64), j = ix2 p q := ⟨j 0, j 1, eq_ix2 j⟩
  rw [Cert.Gate.gates_ix2, val_main_v12_apply, val_main_v11_apply, idx_v11_at, val_main_v10_apply, idx_v10_at, v9_at, v8_at,
    Ideal.hostDivf_def]
  rfl

end Cert.ReferenceIdeal.RefValue

end
-- ==== Proof.lean ====
/-
  The gate kernel against its reference: gates = softmax(inputs · wgᵀ) over the 64 experts, for 8192 tokens of 2048 features.

  On the extended reals both programs compute, for token `p` and expert `q`,
  `exp (z q − max z) / ∑ l, exp (z l − max z)` with `z h = ∑ k, inputs[p, k] · wg[h, k]` the token's row of logits and the
  maximum the fold of `max` from −∞ over the row (Proof/Spec.lean).
  * The kernel walks the tokens in four steps of 2048 rows, each step two half-blocks of 1024 rows, and computes each half's
    logits by a product contracting the feature axis of both operands; what it leaves in the gates' array is the gates of
    every token (Proof/GatePayload.lean for a half-block's arithmetic at an entry, Proof/GateBlocks.lean from the blocks to the
    array, over the run of Proof/KernelIdealRun.lean).
  * The reference transposes the weights, takes one product, and after the row maximum takes the maximum with −∞ once more,
    which changes nothing since a fold of `max` from a value is at least that value; its row sums start from the zero word
    (Proof/RefGates.lean).
  No algebraic law beyond these joins the two sides, so the finiteness of the inputs is not used.
  Both kernel programs run to the end without a fault and leave their arguments as launched: the token array is read
  through two windows, which share it by halves (Proof/KernelRun.lean, Proof/KernelIdealRun.lean); the reference's frame is
  its run with the result dropped. The idealization rewrote nothing, so `preserves` is `True`.
-/
import proofs.«132801_g13709535609206_cont_week2b_1308_7_alg».proof.Defs
import proofs.«132801_g13709535609206_cont_week2b_1308_7_alg».proof.Proof.Gen.Kernel
import proofs.«132801_g13709535609206_cont_week2b_1308_7_alg».proof.Proof.Gen.KernelIdeal
import proofs.«132801_g13709535609206_cont_week2b_1308_7_alg».proof.Proof.Gen.ReferenceIdeal
import proofs.«132801_g13709535609206_cont_week2b_1308_7_alg».proof.Proof.Gen.Pre_finite_inputs
import proofs.«132801_g13709535609206_cont_week2b_1308_7_alg».proof.Proof.KernelRun
import proofs.«132801_g13709535609206_cont_week2b_1308_7_alg».proof.Proof.GateBlocks
import proofs.«132801_g13709535609206_cont_week2b_1308_7_alg».proof.Proof.RefGates
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Run.frame m ρ

theorem frame_pi : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, the kernel's gates' array and the reference's result both end at the
    gates of the launched token and weight arrays. -/
theorem algebraic : Cert.algebraic_KernelIdeal_ReferenceIdeal := by
  intro m ρ m' ρ' _ hagree
  refine ⟨fun c => Cert.KernelIdeal.GateValue.gatesOf m c, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_gates, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
